-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x256 : Shape := ⟨2, ![256, 256]⟩
abbrev S1x256 : Shape := ⟨2, ![1, 256]⟩
abbrev S800000 : Shape := ⟨1, ![800000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S800000 : S_.BroadcastsInDim S800000 (![] : Fin 0 → Fin S800000.rank)
  reducesTo_S800000_S_d0 : S800000.ReducesTo [0] S_

variable [Facts]

def fn_part1 {F : FTy → Type} [FloatOps F] (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  main_v18

def fn {F : FTy → Type} [FloatOps F] (main_arg0 : FVec F S100000x256 .f32) (main_arg1 : FVec F S256x256 .f32) (main_arg2 : FVec F S1x256 .f32) (main_arg3 : FVec F S800000 .f32) (main_arg4 : IVec S800000 32) (main_arg5 : IVec S800000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S800000 .f32 := Host.absf main_arg3
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_v13 main_v16
-- ==== Kernel.lean ====
abbrev S100000x256 : Shape := ⟨2, ![100000, 256]⟩
abbrev S256x256 : Shape := ⟨2, ![256, 256]⟩
abbrev S1x256 : Shape := ⟨2, ![1, 256]⟩
abbrev S800000 : Shape := ⟨1, ![800000]⟩
abbrev S_ : Shape := ⟨0, ![]⟩
abbrev S102400x256 : Shape := ⟨2, ![102400, 256]⟩
abbrev S4096x256 : Shape := ⟨2, ![4096, 256]⟩
abbrev S800000x1 : Shape := ⟨2, ![800000, 1]⟩
abbrev S800000x256 : Shape := ⟨2, ![800000, 256]⟩

abbrev nBuf : Space → Nat
  | .hbm => 29
  | .vmem => 5
  | .smem => 0
  | _ => 0

abbrev bufTy : (tb : Table) → Fin (tcTables nBuf tb) → BufTy
  | .hbm, ⟨0, _⟩ => ⟨S100000x256, .f32⟩
  | .hbm, ⟨1, _⟩ => ⟨S256x256, .f32⟩
  | .hbm, ⟨2, _⟩ => ⟨S1x256, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S_, .i32⟩
  | .hbm, ⟨7, _⟩ => ⟨S_, .f32⟩
  | .hbm, ⟨8, _⟩ => ⟨S102400x256, .f32⟩
  | .hbm, ⟨9, _⟩ => ⟨S102400x256, .f32⟩
  | .hbm, ⟨10, _⟩ => ⟨S100000x256, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x256, .f32⟩
  | .hbm, ⟨20, _⟩ => ⟨S800000x1, .f32⟩
  | .hbm, ⟨21, _⟩ => ⟨S800000x256, .f32⟩
  | .hbm, ⟨22, _⟩ => ⟨S800000x256, .f32⟩
  | .hbm, ⟨23, _⟩ => ⟨S_, .f32⟩
  | .hbm, ⟨24, _⟩ => ⟨S100000x256, .f32⟩
  | .hbm, ⟨25, _⟩ => ⟨S800000x1, .i32⟩
  | .hbm, ⟨26, _⟩ => ⟨S100000x256, .f32⟩
  | .hbm, ⟨27, _⟩ => ⟨S100000x256, .f32⟩
  | .hbm, ⟨28, _⟩ => ⟨S100000x256, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S4096x256, .f32⟩
  | .local _ .vmem, ⟨4, _⟩ => ⟨S4096x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S100000x256_S102400x256_024000_000 : S100000x256.Pads (![0, 0] : Fin 2 → Nat) ![2400, 0] ![0, 0] S102400x256
  h_S_ : 0 < S_.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  slices_S102400x256_S100000x256_0_0 : S102400x256.Slices ![0, 0] S100000x256
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S100000x256 : S_.BroadcastsInDim S100000x256 (![] : Fin 0 → Fin S100000x256.rank)
  bcast_S1x256_S100000x256_0_1 : S1x256.BroadcastsInDim S100000x256 (![0, 1] : Fin 2 → Fin S100000x256.rank)
  dot_S4096x256_S256x256_S4096x256_1_0_0_1_n_n_wf : DotDims.WF S4096x256 S256x256 S4096x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S102400x256.size a
  hwx0_0 : ∀ i : grid0.Coords, EltTy.bits .f32 = 32 ∨ (Rect.block (s := S102400x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S102400x256.size a
  hwx0_2 : ∀ i : grid0.Coords, EltTy.bits .f32 = 32 ∨ (Rect.block (s := S102400x256) S4096x256.size (cc0_transform_2 i) (hinb0_2 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S256x256 : Shape := ⟨2, ![256, 256]⟩
abbrev S1x256 : Shape := ⟨2, ![1, 256]⟩
abbrev S800000 : Shape := ⟨1, ![800000]⟩
abbrev S_ : Shape := ⟨0, ![]⟩
abbrev S800000x1 : Shape := ⟨2, ![800000, 1]⟩
abbrev S800000x256 : Shape := ⟨2, ![800000, 256]⟩

abbrev nBuf : Space → Nat
  | .hbm => 25
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x256, .f32⟩
  | .hbm, ⟨2, _⟩ => ⟨S1x256, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S100000x256, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x256, .f32⟩
  | .hbm, ⟨16, _⟩ => ⟨S800000x1, .f32⟩
  | .hbm, ⟨17, _⟩ => ⟨S800000x256, .f32⟩
  | .hbm, ⟨18, _⟩ => ⟨S800000x256, .f32⟩
  | .hbm, ⟨19, _⟩ => ⟨S_, .f32⟩
  | .hbm, ⟨20, _⟩ => ⟨S100000x256, .f32⟩
  | .hbm, ⟨21, _⟩ => ⟨S800000x1, .i32⟩
  | .hbm, ⟨22, _⟩ => ⟨S100000x256, .f32⟩
  | .hbm, ⟨23, _⟩ => ⟨S100000x256, .f32⟩
  | .hbm, ⟨24, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S100000x256 : S_.BroadcastsInDim S100000x256 (![] : Fin 0 → Fin S100000x256.rank)
  bcast_S1x256_S100000x256_0_1 : S1x256.BroadcastsInDim S100000x256 (![0, 1] : Fin 2 → Fin S100000x256.rank)
  dot_S100000x256_S256x256_S100000x256_1_0_0_1_n_n_wf : DotDims.WF S100000x256 S256x256 S100000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf

class Facts : Prop extends Facts₀ where

variable [Facts]
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.TileProduct.lean ====
import proofs.«173204_j24781961298372_1_alg».proof.Proof.Gen.KernelIdeal.Skeleton
import proofs.«173204_j24781961298372_1_alg».proof.Proof.LibContract
import Idealize.ShloMosaic.Lib.Pipeline.Value

/-!
# One tile of the product, read at an entry

The kernel body loads a tile of 4096 rows of the padded left operand and the whole 256 × 256 right operand,
narrows both to bf16 (at the extended reals a change of format is the identity) and contracts them into a zero
accumulator. So entry `(p, q)` of what it stores is `∑ k, a[p, k] · b[k, q]`.
-/

noncomputable section

namespace Cert.KernelIdeal.TileProduct

open Idealize.ShloMosaic Idealize.ShloMosaic.ValueIdx Cert.KernelIdeal Cert.KernelIdeal.Gen

/-- The printed contraction of the tile product contracts the left operand's columns with the right operand's rows and
    has no batch axis: it is the plain contraction of a 4096 × 256 by a 256 × 256 matrix. -/
theorem tile_contraction_plain :
    dot_S4096x256_S256x256_S4096x256_1_0_0_1_n_n = DotDims.plain 4096 256 256 := rfl

/-- Entry `(p, q)` of the stored tile is the inner product of row `p` of the loaded left tile with column `q` of the
    right operand. -/
theorem tile_entry (a : Vec Ideal S4096x256 .f32) (b : Vec Ideal S256x256 .f32) (p : Fin 4096) (q : Fin 256) :
    k0_pay1 (F := Ideal) a b (ix2 p q) = ∑ k : Fin 256, a (ix2 p k) * b (ix2 k q) := by
  unfold k0_pay1
  rw [shapeCast_self, tile_contraction_plain]
  exact Cert.LibDense.matmul_plain_zero_apply 4096 256 256 none _ _ p q

end Cert.KernelIdeal.TileProduct

end
-- ==== Proof.PaddedProduct.lean ====
import proofs.«173204_j24781961298372_1_alg».proof.Proof.Gen.KernelIdeal.Frame
import proofs.«173204_j24781961298372_1_alg».proof.Proof.TileProduct
import Idealize.ShloMosaic.Lib.Pipeline.Value
import Idealize.ShloMosaic.Lib.ValueIdx

/-!
# The padded product array after the region

The grid has 25 points; point `t` reads rows `4096·t … 4096·t + 4095` of the padded left operand and the whole right
operand, and writes back the same rows of the result. Every row of the 102400-row result lies in exactly the tile
`row / 4096`, so after the region the result array is, entry by entry, the product of the padded left operand with the
right operand.
-/

set_option maxRecDepth 16384

noncomputable section

namespace Cert.KernelIdeal.PaddedProduct

open Idealize.ShloMosaic Idealize.ShloMosaic.TcCoe Idealize.ShloMosaic.ValueIdx Idealize.SL.Sem
open Cert.KernelIdeal Cert.KernelIdeal.Gen Cert.KernelIdeal.TileProduct
open Idealize.ShloMosaic.Pipeline (Dat)

/-- The product of a 102400 × 256 array with a 256 × 256 array: entry `(r, q)` is `∑ k, a[r, k] · b[k, q]`. -/
def prod (a : Vec Ideal S102400x256 .f32) (b : Vec Ideal S256x256 .f32) : Vec Ideal S102400x256 .f32 :=
  fun i => ∑ k : Fin 256, a (ix2 (⟨(i 0).val, (i 0).isLt⟩ : Fin 102400) k) * b (ix2 k (⟨(i 1).val, (i 1).isLt⟩ : Fin 256))

/-- A stored tile is a block of rows of the whole product: if the loaded left tile holds rows `4096·r …` of `a` and the
    loaded right operand is `b`, then the tile's entry `j` is the product's entry `(4096·r + j₀, j₁)`. -/
theorem tile_is_rows (a : Vec Ideal S102400x256 .f32) (b : Vec Ideal S256x256 .f32)
    (at' : Vec Ideal S4096x256 .f32) (bt : Vec Ideal S256x256 .f32) (r : Nat) (hr : r < 25)
    (ha : ∀ (p : Fin 4096) (k : Fin 256), at' (ix2 p k) = a (ix2 (⟨r * 4096 + p.val, by omega⟩ : Fin 102400) k))
    (hb : bt = b) (j : S4096x256.Idx) (i : S102400x256.Idx)
    (hi0 : (i 0).val = r * 4096 + (j 0).val) (hi1 : (i 1).val = (j 1).val) :
    k0_pay1 (F := Ideal) at' bt j = prod a b i := by
  obtain ⟨p, q, rfl⟩ : ∃ (p : Fin 4096) (q : Fin 256), j = ix2 p q := ⟨j 0, j 1, eq_ix2 j⟩
  rw [tile_entry, hb]
  unfold prod
  refine Finset.sum_congr rfl fun k _ => ?_
  rw [ha]
  have e0 : (⟨r * 4096 + p.val, by omega⟩ : Fin 102400) = ⟨(i 0).val, (i 0).isLt⟩ := Fin.ext hi0.symm
  have e1 : q = (⟨(i 1).val, (i 1).isLt⟩ : Fin 256) := Fin.ext hi1.symm
  rw [e0, ← e1]

variable (m : (ℓ : Loc nD τ sig) → Buf (Elt Ideal) ℓ)

theorem zero_offsets : (![0, 0] : Fin 2 → Nat) = fun _ => 0 := funext fun a => by fin_cases a <;> rfl

/-- The printed index maps, decided over the 25 grid points: the left operand's and the result's tiles move together
    down the rows, nothing moves along the columns, and the right operand is always its one whole block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of the product of the arrays the region finds. -/
theorem flushed_eq (c : Dev nD) (t : Fin cfg0.N) :
    (dats m 0 c).flushed 2 t
      = ((cfg0.win 2).blk t).view.read (Elt Ideal) (prod (V m c main_v0) (V m c main_arg1)) := by
  show (cfg0.win 2).cut (grid0.coords t) ((dats m 0 c).after 2 t) = _
  rw [after0_2]
  unfold out0_2
  rw [View.canon_unit_zero zero_offsets]
  simp only [View.ld_unit_zero (S := S4096x256) zero_offsets, View.ld_unit_zero (S := S256x256) zero_offsets]
  obtain ⟨e0, e1, e2, e3, e4, e5⟩ := idx_facts t
  have ht : t.val < 25 := t.isLt
  funext j
  refine tile_is_rows (V m c main_v0) (V m c main_arg1) (iblk m c 0 t) (iblk m c 1 t) t.val ht ?_ ?_ j
    (((cfg0.win 2).blk t).view.emb j) ?_ ?_
  · intro p k
    show V m c main_v0 (((cfg0.win 0).blk t).view.emb (ix2 p k)) = V m c main_v0 _
    refine congrArg _ (funext fun a => Fin.ext ?_)
    match a with
    | ⟨0, _⟩ => show win0_0.index t (0 : Fin 2) * 4096 + 1 * p.val = t.val * 4096 + p.val; rw [e0]; omega
    | ⟨1, _⟩ => show win0_0.index t (1 : Fin 2) * 256 + 1 * k.val = k.val; rw [e1]; omega
  · funext y
    show V m c main_arg1 (((cfg0.win 1).blk t).view.emb y) = V m c main_arg1 y
    refine congrArg _ (funext fun a => Fin.ext ?_)
    match a with
    | ⟨0, _⟩ => show win0_1.index t (0 : Fin 2) * 256 + 1 * (y 0).val = (y 0).val; rw [e2]; omega
    | ⟨1, _⟩ => show win0_1.index t (1 : Fin 2) * 256 + 1 * (y 1).val = (y 1).val; rw [e3]; omega
  · show win0_2.index t (0 : Fin 2) * 4096 + 1 * (j 0).val = t.val * 4096 + (j 0).val; rw [e4]; omega
  · show win0_2.index t (1 : Fin 2) * 256 + 1 * (j 1).val = (j 1).val; rw [e5]; omega

/-- An index of the result array is in point `t`'s block iff each coordinate is in the block's range on its axis. -/
theorem mem_blk (t : Fin cfg0.N) (i : S102400x256.Idx) :
    i ∈ ((cfg0.win 2).blk t).view.set ↔ ∀ a : Fin 2, win0_2.index t a * S4096x256.size a ≤ (i a).val
      ∧ (i a).val < win0_2.index t a * S4096x256.size a + S4096x256.size a := by
  show i ∈ ((View.whole main_v1).slice (win0_2.rect t)).set ↔ _
  rw [View.set_slice_whole, Rect.mem_set_unit]
  exact Iff.rfl

/-- Every entry of the result array is written back: row `r` by the point `r / 4096`. -/
theorem covered (i : S102400x256.Idx) :
    ∃ t : Fin cfg0.N, (cfg0.win 2).flush t = true ∧ i ∈ ((cfg0.win 2).blk t).view.set := by
  have hi0 : (i 0).val < 102400 := (i 0).isLt
  have hi1 : (i 1).val < 256 := (i 1).isLt
  have hN : cfg0.N = 25 := N_0
  let t : Fin cfg0.N := ⟨(i 0).val / 4096, by rw [hN]; omega⟩
  obtain ⟨-, -, -, -, e4, e5⟩ := idx_facts t
  have e4' : win0_2.index t (0 : Fin 2) = (i 0).val / 4096 := e4
  refine ⟨t, flush0_2 t, ?_⟩
  rw [mem_blk]
  intro a
  match a with
  | ⟨0, _⟩ =>
    show win0_2.index t (0 : Fin 2) * 4096 ≤ (i 0).val ∧ (i 0).val < win0_2.index t (0 : Fin 2) * 4096 + 4096
    rw [e4']; omega
  | ⟨1, _⟩ =>
    show win0_2.index t (1 : Fin 2) * 256 ≤ (i 1).val ∧ (i 1).val < win0_2.index t (1 : Fin 2) * 256 + 256
    rw [e5]; omega

/-- After the region the result array is the product of the padded left operand with the right operand, as the region
    found them. -/
theorem result_array (c : Dev nD) :
    (dats m 0 c).arrAt 2 cfg0.N = prod (V m c main_v0) (V m c main_arg1) :=
  (dats m 0 c).arrAt_eq_of_cover 2 _ (fun t _ => flushed_eq m c t) covered

end Cert.KernelIdeal.PaddedProduct

end
-- ==== Proof.DenseProduct.lean ====
import proofs.«173204_j24781961298372_1_alg».proof.Proof.PaddedProduct
import proofs.«173204_j24781961298372_1_alg».proof.Proof.LibContract
import Idealize.ShloMosaic.Lib.KernelVsHost
import Idealize.ShloMosaic.Lib.Pipeline.Value
import Idealize.ShloMosaic.Lib.ValueIdx

/-!
# Cutting the padded product back is the plain product

The left operand is padded with 2400 rows below its 100000 rows before the tiled product and the result is cut back to
its first 100000 rows. A row of a matrix product depends only on the same row of the left operand, and a kept row of
the padded operand is the operand's own row, so the cut is `x · w` itself, whatever value fills the padding.
-/

set_option maxRecDepth 16384

noncomputable section

namespace Cert.KernelIdeal.DenseProduct

open Idealize.ShloMosaic Idealize.ShloMosaic.ValueIdx
open Cert.KernelIdeal Cert.KernelIdeal.Gen Cert.KernelIdeal.PaddedProduct

/-- A kept row of the padded operand is the operand's row: entry `(r, k)` with `r < 100000` lies inside the operand on both
    axes (no low padding, no interior padding). -/
theorem padded_row (x : Vec Ideal S100000x256 .f32) (v : Vec Ideal S_ .f32) (r : Fin 100000) (k : Fin 256) :
    pad S102400x256 ![0, 0] ![2400, 0] ![0, 0] x v pads_S100000x256_S102400x256_024000_000 h_S_
        (ix2 (⟨r.val, by omega⟩ : Fin 102400) k) = x (ix2 r k) :=
  pad_apply_of_inside _ _ _ x v _ _ _ (ix2 r k) (fun a => match a with
    | ⟨0, _⟩ => by show r.val = 0 + r.val * (0 + 1); omega
    | ⟨1, _⟩ => by show k.val = 0 + k.val * (0 + 1); omega)

/-- The first 100000 rows of the product of the padded operand with `w` are the plain contraction of `x` with `w`:
    entry `(r, q)` of both is `∑ k, x[r, k] · w[k, q]`. -/
theorem cut_padded_product (x : Vec Ideal S100000x256 .f32) (w : Vec Ideal S256x256 .f32) (v : Vec Ideal S_ .f32) :
    extractStridedSlice S100000x256 ![0, 0]
        (prod (pad S102400x256 ![0, 0] ![2400, 0] ![0, 0] x v pads_S100000x256_S102400x256_024000_000 h_S_) w)
        slices_S102400x256_S100000x256_0_0
      = Host.dotGeneral (F := Ideal) (φ₁ := .f32) (φ₂ := .f32) (DotDims.plain 100000 256 256) none x w := by
  funext j
  obtain ⟨r, q, rfl⟩ : ∃ (r : Fin 100000) (q : Fin 256), j = ix2 r q := ⟨j 0, j 1, eq_ix2 j⟩
  rw [Cert.LibDense.dotGeneral_plain_apply]
  rw [extractStridedSlice_apply ![0, 0] _ slices_S102400x256_S100000x256_0_0 (ix2 r q)
    (ix2 (⟨r.val, by omega⟩ : Fin 102400) q) (fun a => match a with
      | ⟨0, _⟩ => by show r.val = 0 + r.val; omega
      | ⟨1, _⟩ => by show q.val = 0 + q.val; omega)]
  unfold prod
  refine Finset.sum_congr rfl fun k _ => ?_
  show pad S102400x256 ![0, 0] ![2400, 0] ![0, 0] x v pads_S100000x256_S102400x256_024000_000 h_S_
      (ix2 (⟨r.val, by omega⟩ : Fin 102400) k) * w (ix2 k q) = x (ix2 r k) * w (ix2 k q)
  rw [padded_row]

end Cert.KernelIdeal.DenseProduct

end
-- ==== Proof.Aggregation.lean ====
import proofs.«173204_j24781961298372_1_alg».proof.Proof.Gen.KernelIdeal.Frame
import proofs.«173204_j24781961298372_1_alg».proof.Proof.PaddedProduct
import proofs.«173204_j24781961298372_1_alg».proof.Proof.DenseProduct
import Idealize.ShloMosaic.Lib.StableHlo.Run
import Idealize.ShloMosaic.PureOps.Ideal

/-!
# The kernel's result: the sparse aggregation of the dense product

After the tiled product the program gathers the rows `supp[src[e]]` (a negative `src[e]` first wrapped by adding
100000), scales row `e` by `edge_weight[e]`, adds the scaled rows into the rows `dst[e]` of a zero array, and adds the
bias row to every row. All of that is one function `aggregate` of the dense product `supp` and the four other
arguments; nothing in this file looks inside it. The dense product the kernel feeds it is the first 100000 rows of the
padded tiled product, which is `x · w`.
-/

set_option maxRecDepth 16384

noncomputable section

namespace Cert.KernelIdeal.Aggregation

open Idealize.ShloMosaic Idealize.ShloMosaic.TcCoe Idealize.SL.Sem Idealize.ShloMosaic.StableHlo
open Cert.KernelIdeal Cert.KernelIdeal.Gen Cert.KernelIdeal.PaddedProduct Cert.KernelIdeal.DenseProduct

/-- Gather the rows of `supp` named by `src` (negative entries wrapped once by 100000), scale row `e` by `ew[e]`,
    scatter-add the scaled rows into a zero array at the rows named by `dst`, and add the bias row to every row. -/
def aggregate (supp : (⟨S100000x256, .f32⟩ : BufTy).Contents (Elt Ideal)) (bias : (⟨S1x256, .f32⟩ : BufTy).Contents (Elt Ideal))
    (ew : (⟨S800000, .f32⟩ : BufTy).Contents (Elt Ideal)) (src dst : (⟨S800000, .i32⟩ : BufTy).Contents (Elt Ideal)) :
    (⟨S100000x256, .f32⟩ : BufTy).Contents (Elt Ideal) :=
  addf
    (Host.scatterAdd scatter_S100000x256_S800000x1_S800000x256_1_0_0_1
      (broadcastInDim S100000x256 ![] bcast_S_S100000x256 (constant (F := Ideal) S_ .f32 0x00000000#32))
      (broadcastInDim S800000x1 ![0] bcast_S800000_S800000x1_0 dst)
      (mulf
        (Host.gather gather_S100000x256_S800000x1_S800000x256_1_0_n_n_0_1_1256 supp
          (broadcastInDim S800000x1 ![0] bcast_S800000_S800000x1_0
            (select (cmpi .slt src (broadcastInDim S800000 ![] bcast_S_S800000 (constantI S_ 32 0#32)))
              (addi src (broadcastInDim S800000 ![] bcast_S_S800000 (constantI S_ 32 100000#32))) src)))
        (broadcastInDim S800000x256 ![0, 1] bcast_S800000x1_S800000x256_0_1
          (broadcastInDim S800000x1 ![0] bcast_S800000_S800000x1_0 ew))))
    (broadcastInDim S100000x256 ![0, 1] bcast_S1x256_S100000x256_0_1 bias)

variable (m : (ℓ : Loc nD τ sig) → Buf (Elt Ideal) ℓ)

/-- The left operand the region finds is the input padded with 2400 rows of the converted integer zero. -/
theorem padded_input (c : Dev nD) :
    (V m c main_v0 : Vec Ideal S102400x256 .f32)
      = pad S102400x256 ![0, 0] ![2400, 0] ![0, 0] (m ((c : Thread nD τ).loc main_arg0))
          (sitofp (F := Ideal) .f32 (constantI S_ 32 0#32)) pads_S100000x256_S102400x256_024000_000 h_S_ := by
  dsimp only [V, V0]
  simp only [hostOps0, hostOps0_1, List.flatten_cons, List.flatten_nil, List.append_nil, List.cons_append, List.nil_append]
  after_results
  rfl

set_option maxHeartbeats 2000000 in
/-- The program's result is the aggregation of the first 100000 rows of the result array the region leaves, with the
    other four arguments as launched: the lines after the region read that array, and the arguments, which no line
    before or after the region writes. -/
theorem result_of_array (c : Dev nD) :
    Pipeline.afterTail₀ cfgs (dats m) 0 (V0 m) [hostOps1] c main_v17
      = aggregate
          (extractStridedSlice S100000x256 ![0, 0] ((dats m 0 c).arrAt 2 cfg0.N) slices_S102400x256_S100000x256_0_0)
          (m ((c : Thread nD τ).loc main_arg2)) (m ((c : Thread nD τ).loc main_arg3))
          (m ((c : Thread nD τ).loc main_arg4)) (m ((c : Thread nD τ).loc main_arg5)) := by
  have hv1 : Pipeline.withArrays (cfgs 0).spec c (V0 m c) (fun w => (dats m 0 c).arrAt w (cfgs 0).N) (Proc.devRef .tc main_v1)
      = (dats m 0 c).arrAt 2 cfg0.N := Pipeline.withArrays_arr spec0 launch0.win.arr_inj c _ _ 2
  have ha2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have ha3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  have ha4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans (V_main_arg4 m c)
  have ha5 : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans (V_main_arg5 m c)
  unfold Pipeline.afterTail₀
  simp only [List.flatten_cons, List.flatten_nil, List.append_nil]
  after_results
  rw [hv1, ha2, ha3, ha4, ha5]
  rfl

/-- The program's result is the aggregation of `x · w`. -/
theorem result_value (c : Dev nD) :
    Pipeline.afterTail₀ cfgs (dats m) 0 (V0 m) [hostOps1] c main_v17
      = aggregate
          (Host.dotGeneral (F := Ideal) (φ₁ := .f32) (φ₂ := .f32) (DotDims.plain 100000 256 256) none
            (m ((c : Thread nD τ).loc main_arg0)) (m ((c : Thread nD τ).loc main_arg1)))
          (m ((c : Thread nD τ).loc main_arg2)) (m ((c : Thread nD τ).loc main_arg3))
          (m ((c : Thread nD τ).loc main_arg4)) (m ((c : Thread nD τ).loc main_arg5)) := by
  rw [result_of_array, result_array, padded_input, V_main_arg1, cut_padded_product]

/-- Every weakly fair execution of the idealized kernel program terminates with its result at the aggregation of
    `x · w` and its six arguments as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v17)
          = aggregate
              (Host.dotGeneral (F := Ideal) (φ₁ := .f32) (φ₂ := .f32) (DotDims.plain 100000 256 256) none
                (m ((c : Thread nD τ).loc main_arg0)) (m ((c : Thread nD τ).loc main_arg1)))
              (m ((c : Thread nD τ).loc main_arg2)) (m ((c : Thread nD τ).loc main_arg3))
              (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v17 (Pipeline.mem_restRefs_of main_v17 (by decide) (by decide))).trans (result_value m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Aggregation

end
-- ==== Proof.ReferenceValue.lean ====
import proofs.«173204_j24781961298372_1_alg».proof.Proof.Gen.ReferenceIdeal.Run
import proofs.«173204_j24781961298372_1_alg».proof.Proof.Gen.ReferenceIdeal.Read
import proofs.«173204_j24781961298372_1_alg».proof.Proof.Aggregation

/-!
# The reference's result is the same aggregation of the same dense product

The reference computes `x · w` by one host contraction (columns of `x` against rows of `w`, no batch axis) and then
applies, line for line, the gather / scale / scatter-add / bias lines the kernel program applies after its region: the
same shapes, the same index conventions, the same literals 0, 100000 and 0.0. So its composed term is `aggregate` of
the plain contraction of its first two arguments and of its other four arguments.
-/

noncomputable section

namespace Cert.ReferenceIdeal.RefValue

open Idealize.ShloMosaic Cert.KernelIdeal.Aggregation

/-- The reference's last stage, as a function of its six arguments, is the aggregation of the plain contraction. -/
theorem stage_is_aggregate
    (x0 : (⟨Cert.ReferenceIdeal.S100000x256, .f32⟩ : BufTy).Contents (Elt Ideal))
    (x1 : (⟨Cert.ReferenceIdeal.S256x256, .f32⟩ : BufTy).Contents (Elt Ideal))
    (x2 : (⟨Cert.ReferenceIdeal.S1x256, .f32⟩ : BufTy).Contents (Elt Ideal))
    (x3 : (⟨Cert.ReferenceIdeal.S800000, .f32⟩ : BufTy).Contents (Elt Ideal))
    (x4 x5 : (⟨Cert.ReferenceIdeal.S800000, .i32⟩ : BufTy).Contents (Elt Ideal)) :
    Cert.ReferenceIdeal.Read.val_main_v15 (F := Ideal) x0 x1 x2 x3 x4 x5
      = aggregate (Host.dotGeneral (F := Ideal) (φ₁ := .f32) (φ₂ := .f32) (DotDims.plain 100000 256 256) none x0 x1)
          x2 x3 x4 x5 := rfl

end Cert.ReferenceIdeal.RefValue

end
-- ==== Proof.lean ====
/-
  A graph-convolution layer: `out = segment_sum((x · w)[src] * edge_weight[:, None], dst) + bias`, over 100000 nodes with
  256 features and 800000 edges.

  The kernel program computes the dense product `x · w` by a tiled kernel: `x` is padded with 2400 zero rows to 102400
  rows, each of 25 grid points multiplies a tile of 4096 rows by the whole 256 × 256 `w` (both narrowed to bf16, which on
  the extended reals changes nothing) into a zero accumulator, and the first 100000 rows are kept. The reference computes
  `x · w` by one contraction. After that both programs run the same lines: wrap a negative source index by 100000, gather
  the source rows, scale row `e` by `edge_weight[e]`, scatter-add into a zero array at the destination rows, add the bias.

  Why the two results are equal, entry by entry:
  * entry `(p, q)` of a stored tile is `∑ k, a[p, k] · b[k, q]` of the loaded tile `a` and `b = w` (TileProduct);
  * row `r` of the result array is written by the point `r / 4096` and by no other, so the array after the region is the
    product of the padded `x` with `w` (PaddedProduct);
  * a row of a product depends only on that row of the left operand, and a kept row of the padded `x` is `x`'s row, so the
    kept rows are `x · w` whatever fills the padding (DenseProduct);
  * the lines after the product are one function `aggregate` of the product and the other four arguments, the same on
    both sides, never opened (Aggregation for the kernel program, ReferenceValue for the reference).
  No law of arithmetic beyond re-indexing a finite sum is used, so the finiteness of the inputs is never needed.

  The three frames: the kernel programs' are the generated frames; the reference has no kernel, and its frame is its
  generated run with the result dropped. No operation was rewritten by the idealization, so there is nothing to preserve.
-/
import proofs.«173204_j24781961298372_1_alg».proof.Defs
import proofs.«173204_j24781961298372_1_alg».proof.Proof.Gen.Kernel
import proofs.«173204_j24781961298372_1_alg».proof.Proof.Gen.Kernel.Skeleton
import proofs.«173204_j24781961298372_1_alg».proof.Proof.Gen.Kernel.Launch
import proofs.«173204_j24781961298372_1_alg».proof.Proof.Gen.Kernel.Points
import proofs.«173204_j24781961298372_1_alg».proof.Proof.Gen.Kernel.Frame
import proofs.«173204_j24781961298372_1_alg».proof.Proof.Gen.KernelIdeal
import proofs.«173204_j24781961298372_1_alg».proof.Proof.Gen.KernelIdeal.Skeleton
import proofs.«173204_j24781961298372_1_alg».proof.Proof.Gen.KernelIdeal.Launch
import proofs.«173204_j24781961298372_1_alg».proof.Proof.Gen.KernelIdeal.Points
import proofs.«173204_j24781961298372_1_alg».proof.Proof.Gen.KernelIdeal.Frame
import proofs.«173204_j24781961298372_1_alg».proof.Proof.Gen.ReferenceIdeal
import proofs.«173204_j24781961298372_1_alg».proof.Proof.Gen.Pre_finite_inputs
import proofs.«173204_j24781961298372_1_alg».proof.Proof.Gen.ReferenceIdeal.Run
import proofs.«173204_j24781961298372_1_alg».proof.Proof.Gen.ReferenceIdeal.Read
import proofs.«173204_j24781961298372_1_alg».proof.Proof.Aggregation
import proofs.«173204_j24781961298372_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- The reference runs and leaves its arguments unchanged: its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the aggregation of `x · w`: the kernel program
    by its run read through the tiled product, the reference because its composed term is that aggregation. -/
theorem algebraic : Cert.algebraic_KernelIdeal_ReferenceIdeal := by
  intro m ρ m' ρ' _ hagree
  refine ⟨_, Cert.KernelIdeal.Aggregation.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [h0, h1, h2, h3, h4, h5]
  exact Cert.ReferenceIdeal.RefValue.stage_is_aggregate _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
